-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x128 : Shape := ⟨2, ![400, 128]⟩
abbrev S400x10000 : Shape := ⟨2, ![400, 10000]⟩

abbrev nBuf : Space → Nat
  | .hbm => 6
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S400x10000, .f32⟩
  | .local _ .vmem, ⟨3, _⟩ => ⟨S400x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsBody.lean ====
/-
  One grid point of the fused graph-convolution kernel, and the data the pipeline rule needs about it.

  At grid point `t` (25 points, 400 rows each) the body is handed six staging buffers: rows `400·t … 400·t+399` of the
  node features, the same rows of the adjacency, the whole node features (a second window on the same array), the
  weights, the bias as a 1 × 128 row, and the output block.  It reads the five inputs, and overwrites the whole output
  block with ONE value: the payload `k0_pay1` of the five loads — `(xblk + adjblk · x) · w + b`.  Nothing else is
  touched, so after the body the inputs' buffers hold what they held and the output's holds that payload.
-/
import proofs.«141758_g30940944400406_retrytranche2_1339_10_alg».proof.Proof.Gen.Kernel.Launch
import proofs.«141758_g30940944400406_retrytranche2_1339_10_alg».proof.Proof.Gen.Kernel.Skeleton
import proofs.«141758_g30940944400406_retrytranche2_1339_10_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer is read or written whole -/

abbrev rXb : Rect S400x128 := Rect.unit (s := S400x128) ![0, 0] S400x128.size inb_S400x128_S400x128_0_0
abbrev rAb : Rect S400x10000 := Rect.unit (s := S400x10000) ![0, 0] S400x10000.size inb_S400x10000_S400x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the output block holds after the body, from the five input buffers' contents: the one store's payload over
    the whole block. -/
def outBlk (xb : Vec F S400x128 .f32) (ab : Vec F S400x10000 .f32) (x : Vec F S10000x128 .f32) (w : Vec F S128x128 .f32)
    (b : Vec F S1x128 .f32) : Vec F S400x128 .f32 :=
  View.canon [⟨rXb, k0_pay1 (View.ld ab rAb) (View.ld x rX) (View.ld xb rXb) (View.ld w rW) (View.ld b rB)⟩]

/-- The one store covers the block. -/
theorem cover_out (p0 : Vec F S400x128 .f32) (y : S400x128.Idx) :
    ∃ pc ∈ ([⟨rXb, p0⟩] : List (View.Piece (Elt F) S400x128 .f32)), y ∈ pc.1.set :=
  View.cover_of_tiled [⟨rXb, p0⟩] S400x128.size (by rfl) y

/-! ## The body's triple -/

set_option maxHeartbeats 1000000 in
/-- On whole staging memrefs, the inputs' at contents `xb ab x w b` and the output's at anything, the body runs to
    the continuation with the inputs' as they were and the output's at `outBlk` of them. -/
theorem sound_kernel (c : Dev nD) (E : Set ℕ) (i : grid0.Coords)
    (arg1 : Memref sig .tc .vmem S400x128 .f32) (harg1 : arg1.IsWhole) (arg2 : Memref sig .tc .vmem S400x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x128 .f32) (harg6 : arg6.IsWhole)
    (xb : Vec F S400x128 .f32) (ab : Vec F S400x10000 .f32) (x : Vec F S10000x128 .f32) (w : Vec F S128x128 .f32) (b : Vec F S1x128 .f32)
    (K : PUnit → sProp 𝕄) :
    iprop(owns (c : Thread nD τ) arg1 fullShare xb ∗ owns (c : Thread nD τ) arg2 fullShare ab ∗ owns (c : Thread nD τ) arg3 fullShare x
        ∗ owns (c : Thread nD τ) arg4 fullShare w ∗ owns (c : Thread nD τ) arg5 fullShare b ∗ (∃ d, owns (c : Thread nD τ) arg6 fullShare d)
        ∗ (iprop(owns (c : Thread nD τ) arg1 fullShare xb ∗ owns (c : Thread nD τ) arg2 fullShare ab ∗ owns (c : Thread nD τ) arg3 fullShare x
            ∗ owns (c : Thread nD τ) arg4 fullShare w ∗ owns (c : Thread nD τ) arg5 fullShare b
            ∗ owns (c : Thread nD τ) arg6 fullShare (outBlk xb ab x w b)) -∗ K ⟨⟩))
      ⊢ wp frame (wpE (defs₀ (F := F)) Variants.none c none) E (cc0__cheb_block i arg1 harg1 arg2 harg2 arg3 harg3 arg4 harg4 arg5 harg5 arg6 harg6) K := by
  simp only [cc0__cheb_block_eq_skeleton]; unfold cc0__cheb_block_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The arrays when the region is entered -/

variable (m : (ℓ : Loc nD τ sig) → Buf (Elt F) ℓ) (ρ : Dev nD → PrngReg)

/-- Core `c`'s buffers when the region is entered: as launched, but for the bias reshaped to one row of 128 by the one
    host operation before the region. -/
abbrev V (c : Dev nD) (b : Ref sig .tc) : Buf (Elt F) ((c : Thread nD τ).loc b) := StableHlo.after hostOps0 (fun b => m (c, b)) b

/-- The reshape allocates nothing. -/
theorem hostOps0_fresh : (hostOps0 : List (HloOp τ sig (Elt F))).Forall fun op => op.fresh = ∅ := by
  simp only [List.Forall]; repeat' constructor

/-- @main up to the region: the reshape, then the region, from the launch contents to `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its own result: the node features are as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- the adjacency, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- the weights -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
/-- and the bias itself. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks and the proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The data of the one pipeline on core `c`: the arrays as the region finds them; after the body each input's buffer
    at its block and the output's at `outBlk` of the five input blocks; no invariant of the body's own; nothing owed.
    The node features are read through two windows (their 400-row block and the whole array): the array's share is
    dealt to them in two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := iprop(emp)
  q w := match w with
    | ⟨0, _⟩ => (fullShare : PosShare TreeShare).left
    | ⟨1, _⟩ => fullShare
    | ⟨2, _⟩ => (fullShare : PosShare TreeShare).right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (iblk m c 0 t) (iblk m c 1 t) (iblk m c 2 t) (iblk m c 3 t) (iblk m c 4 t) := by dsimp only [dats]

/-- Each input's current staging buffer holds its block at every point, fetched there or not: a window that is not
    fetched at a point has not moved since it was, and the body leaves inputs in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; what the core owes
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsRun.lean ====
/-
  The launch of the fused graph-convolution kernel: from the body obligation to a run of @main.

  @main reshapes the bias to one row and then runs the one kernel region over 25 grid points.  The node-feature array
  is handed to the region through two windows, so the launch is the one for windows that share an array: the array's
  full share is dealt in two halves, one to each window; every other array is held whole.  The run ends with every
  window's array at what the pipeline's write-backs made of it (inputs are never written, the output receives each
  point's block), and the one buffer no window reads — the bias as launched — untouched.
-/
import proofs.«141758_g30940944400406_retrytranche2_1339_10_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share_0 (c : Dev nD) : (dats m 0 c).share 0 = (fullShare : PosShare TreeShare).left := by unfold Dat.share; rfl
theorem share_1 (c : Dev nD) : (dats m 0 c).share 1 = fullShare := by unfold Dat.share; rfl
theorem share_2 (c : Dev nD) : (dats m 0 c).share 2 = (fullShare : PosShare TreeShare).right := by unfold Dat.share; rfl
theorem share_3 (c : Dev nD) : (dats m 0 c).share 3 = fullShare := by unfold Dat.share; rfl
theorem share_4 (c : Dev nD) : (dats m 0 c).share 4 = fullShare := by unfold Dat.share; rfl
theorem share_5 (c : Dev nD) : (dats m 0 c).share 5 = fullShare := by unfold Dat.share; rfl

/-- A window's array at entry, held at the window's share, is the buffer behind it at the region-entry contents. -/
theorem arr_entry (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w) : sProp 𝕄) := by
  rw [(arr_whole0 w).set_eq_univ]; rfl

/-- The distinct buffers behind the six windows, one by one: five, the node features counted once. -/
theorem arrBufs_eq (c : Dev nD) :
    (Pipeline.arrBufs spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_arg2) ↦{fullShare} V m c main_arg2)
          ∗ (((c.tc : Thread nD τ).loc main_call0_v0) ↦{fullShare} V m c main_call0_v0)
          ∗ (((c.tc : Thread nD τ).loc main_v0) ↦{fullShare} V m c main_v0)) := by
  unfold Pipeline.arrBufs
  exact bigSep_eq_bigSepL_of_eq [main_arg0, main_arg1, main_arg2, main_call0_v0, main_v0] (by decide) (by decide) _

/-- The five buffers behind the six windows, each whole, make the windows' arrays at their shares: the node features'
    full share splits into the two halves its two windows hold. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [arr_entry m c 0, arr_entry m c 1, arr_entry m c 2, arr_entry m c 3, arr_entry m c 4, arr_entry m c 5,
    share_0, share_1, share_2, share_3, share_4, share_5]
  iintro ⟨H0, H1, H2, H3, H4⟩
  ihave ⟨H0a, H0b⟩ := (pointsTo_share (PosShare.mem_left_op_right fullShare)).1 $$ H0
  isplitl [H0a]; · iexact H0a
  isplitl [H1]; · iexact H1
  isplitl [H0b]; · iexact H0b
  isplitl [H2]; · iexact H2
  isplitl [H3]; · iexact H3
  iexact H4

/-! ## The run -/

/-- The unscoped buffers no window reads. -/
abbrev bypass : Finset (Ref sig .tc) := (Finset.univ.filter fun b : Ref sig .tc => ¬ b.isScoped) \ Finset.univ.image (Pipeline.arrRef spec0)

set_option backward.isDefEq.respectTransparency.types false in
/-- From any memory with zero counters every weakly fair execution of @main terminates, nothing faulting, with every
    window's array at the pipeline's account of the write-backs and every buffer no window reads as the region found
    it. -/
theorem run_main : θ_run defs (onTc (τ := τ) (main (F := F))) ⟨m, fun _ => 0, ρ⟩ (fun r => ∀ c : Dev nD,
      (∀ w : Fin cfg0.W, r.2.mem ((cfg0.win w).arr.view.loc (c.tc : Thread nD τ)) = (dats m 0 c).arrAt w cfg0.N)
      ∧ ∀ b ∈ bypass, r.2.mem ((c.tc : Thread nD τ).loc b) = V m c b) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := hsplit m)
    (X := fun _ => iprop(emp)) (Y := fun _ => iprop(emp)) (Z := fun c => Pipeline.unscopedRest spec0 c (V m c))
    (hX := fun c => by iintro H; isplitr; · iempintro
                       iexact H)
    (hin := fun c => by iintro -; iempintro)
    (hout := fun c => by rw [scopedRest0_eq]; iintro -; isplitr <;> iempintro)
    (QY := fun c s => ∀ b ∈ bypass, s.mem ((c.tc : Thread nD τ).loc b) = V m c b)
    (hY := fun c s' => by
      iintro ⟨-, HU, HSI⟩
      unfold Pipeline.unscopedRest
      imodintro
      iapply (pointsTo_read_all bypass (fun b => (c.tc : Thread nD τ).loc b) (V m c) s')
      isplitl [HU] <;> iassumption)
    (hQ := fun s h c => ⟨(h c).1, (h c).2⟩)

/-- The frame: the four arguments end as launched — the node features, the adjacency and the weights are inputs of the
    pipeline, never written back; the bias is read by no window (only its reshaped copy is). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (by decide)).trans (V_main_arg3 m c)⟩)
    (run_main m ρ)

end Cert.Kernel.Hand

end
-- ==== Proof.IdealBody.lean ====
/-
  One grid point of the fused graph-convolution kernel, and the data the pipeline rule needs about it.

  At grid point `t` (25 points, 400 rows each) the body is handed six staging buffers: rows `400·t … 400·t+399` of the
  node features, the same rows of the adjacency, the whole node features (a second window on the same array), the
  weights, the bias as a 1 × 128 row, and the output block.  It reads the five inputs, and overwrites the whole output
  block with ONE value: the payload `k0_pay1` of the five loads — `(xblk + adjblk · x) · w + b`.  Nothing else is
  touched, so after the body the inputs' buffers hold what they held and the output's holds that payload.
-/
import proofs.«141758_g30940944400406_retrytranche2_1339_10_alg».proof.Proof.Gen.KernelIdeal.Launch
import proofs.«141758_g30940944400406_retrytranche2_1339_10_alg».proof.Proof.Gen.KernelIdeal.Skeleton
import proofs.«141758_g30940944400406_retrytranche2_1339_10_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer is read or written whole -/

abbrev rXb : Rect S400x128 := Rect.unit (s := S400x128) ![0, 0] S400x128.size inb_S400x128_S400x128_0_0
abbrev rAb : Rect S400x10000 := Rect.unit (s := S400x10000) ![0, 0] S400x10000.size inb_S400x10000_S400x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the output block holds after the body, from the five input buffers' contents: the one store's payload over
    the whole block. -/
def outBlk (xb : Vec F S400x128 .f32) (ab : Vec F S400x10000 .f32) (x : Vec F S10000x128 .f32) (w : Vec F S128x128 .f32)
    (b : Vec F S1x128 .f32) : Vec F S400x128 .f32 :=
  View.canon [⟨rXb, k0_pay1 (View.ld ab rAb) (View.ld x rX) (View.ld xb rXb) (View.ld w rW) (View.ld b rB)⟩]

/-- The one store covers the block. -/
theorem cover_out (p0 : Vec F S400x128 .f32) (y : S400x128.Idx) :
    ∃ pc ∈ ([⟨rXb, p0⟩] : List (View.Piece (Elt F) S400x128 .f32)), y ∈ pc.1.set :=
  View.cover_of_tiled [⟨rXb, p0⟩] S400x128.size (by rfl) y

/-! ## The body's triple -/

set_option maxHeartbeats 1000000 in
/-- On whole staging memrefs, the inputs' at contents `xb ab x w b` and the output's at anything, the body runs to
    the continuation with the inputs' as they were and the output's at `outBlk` of them. -/
theorem sound_kernel (c : Dev nD) (E : Set ℕ) (i : grid0.Coords)
    (arg1 : Memref sig .tc .vmem S400x128 .f32) (harg1 : arg1.IsWhole) (arg2 : Memref sig .tc .vmem S400x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x128 .f32) (harg6 : arg6.IsWhole)
    (xb : Vec F S400x128 .f32) (ab : Vec F S400x10000 .f32) (x : Vec F S10000x128 .f32) (w : Vec F S128x128 .f32) (b : Vec F S1x128 .f32)
    (K : PUnit → sProp 𝕄) :
    iprop(owns (c : Thread nD τ) arg1 fullShare xb ∗ owns (c : Thread nD τ) arg2 fullShare ab ∗ owns (c : Thread nD τ) arg3 fullShare x
        ∗ owns (c : Thread nD τ) arg4 fullShare w ∗ owns (c : Thread nD τ) arg5 fullShare b ∗ (∃ d, owns (c : Thread nD τ) arg6 fullShare d)
        ∗ (iprop(owns (c : Thread nD τ) arg1 fullShare xb ∗ owns (c : Thread nD τ) arg2 fullShare ab ∗ owns (c : Thread nD τ) arg3 fullShare x
            ∗ owns (c : Thread nD τ) arg4 fullShare w ∗ owns (c : Thread nD τ) arg5 fullShare b
            ∗ owns (c : Thread nD τ) arg6 fullShare (outBlk xb ab x w b)) -∗ K ⟨⟩))
      ⊢ wp frame (wpE (defs₀ (F := F)) Variants.none c none) E (cc0__cheb_block i arg1 harg1 arg2 harg2 arg3 harg3 arg4 harg4 arg5 harg5 arg6 harg6) K := by
  simp only [cc0__cheb_block_eq_skeleton]; unfold cc0__cheb_block_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The arrays when the region is entered -/

variable (m : (ℓ : Loc nD τ sig) → Buf (Elt F) ℓ) (ρ : Dev nD → PrngReg)

/-- Core `c`'s buffers when the region is entered: as launched, but for the bias reshaped to one row of 128 by the one
    host operation before the region. -/
abbrev V (c : Dev nD) (b : Ref sig .tc) : Buf (Elt F) ((c : Thread nD τ).loc b) := StableHlo.after hostOps0 (fun b => m (c, b)) b

/-- The reshape allocates nothing. -/
theorem hostOps0_fresh : (hostOps0 : List (HloOp τ sig (Elt F))).Forall fun op => op.fresh = ∅ := by
  simp only [List.Forall]; repeat' constructor

/-- @main up to the region: the reshape, then the region, from the launch contents to `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its own result: the node features are as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- the adjacency, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- the weights -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
/-- and the bias itself. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks and the proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The data of the one pipeline on core `c`: the arrays as the region finds them; after the body each input's buffer
    at its block and the output's at `outBlk` of the five input blocks; no invariant of the body's own; nothing owed.
    The node features are read through two windows (their 400-row block and the whole array): the array's share is
    dealt to them in two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := iprop(emp)
  q w := match w with
    | ⟨0, _⟩ => (fullShare : PosShare TreeShare).left
    | ⟨1, _⟩ => fullShare
    | ⟨2, _⟩ => (fullShare : PosShare TreeShare).right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (iblk m c 0 t) (iblk m c 1 t) (iblk m c 2 t) (iblk m c 3 t) (iblk m c 4 t) := by dsimp only [dats]

/-- Each input's current staging buffer holds its block at every point, fetched there or not: a window that is not
    fetched at a point has not moved since it was, and the body leaves inputs in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; what the core owes
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealRun.lean ====
/-
  The launch of the fused graph-convolution kernel: from the body obligation to a run of @main.

  @main reshapes the bias to one row and then runs the one kernel region over 25 grid points.  The node-feature array
  is handed to the region through two windows, so the launch is the one for windows that share an array: the array's
  full share is dealt in two halves, one to each window; every other array is held whole.  The run ends with every
  window's array at what the pipeline's write-backs made of it (inputs are never written, the output receives each
  point's block), and the one buffer no window reads — the bias as launched — untouched.
-/
import proofs.«141758_g30940944400406_retrytranche2_1339_10_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share_0 (c : Dev nD) : (dats m 0 c).share 0 = (fullShare : PosShare TreeShare).left := by unfold Dat.share; rfl
theorem share_1 (c : Dev nD) : (dats m 0 c).share 1 = fullShare := by unfold Dat.share; rfl
theorem share_2 (c : Dev nD) : (dats m 0 c).share 2 = (fullShare : PosShare TreeShare).right := by unfold Dat.share; rfl
theorem share_3 (c : Dev nD) : (dats m 0 c).share 3 = fullShare := by unfold Dat.share; rfl
theorem share_4 (c : Dev nD) : (dats m 0 c).share 4 = fullShare := by unfold Dat.share; rfl
theorem share_5 (c : Dev nD) : (dats m 0 c).share 5 = fullShare := by unfold Dat.share; rfl

/-- A window's array at entry, held at the window's share, is the buffer behind it at the region-entry contents. -/
theorem arr_entry (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w) : sProp 𝕄) := by
  rw [(arr_whole0 w).set_eq_univ]; rfl

/-- The distinct buffers behind the six windows, one by one: five, the node features counted once. -/
theorem arrBufs_eq (c : Dev nD) :
    (Pipeline.arrBufs spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_arg2) ↦{fullShare} V m c main_arg2)
          ∗ (((c.tc : Thread nD τ).loc main_call0_v0) ↦{fullShare} V m c main_call0_v0)
          ∗ (((c.tc : Thread nD τ).loc main_v0) ↦{fullShare} V m c main_v0)) := by
  unfold Pipeline.arrBufs
  exact bigSep_eq_bigSepL_of_eq [main_arg0, main_arg1, main_arg2, main_call0_v0, main_v0] (by decide) (by decide) _

/-- The five buffers behind the six windows, each whole, make the windows' arrays at their shares: the node features'
    full share splits into the two halves its two windows hold. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [arr_entry m c 0, arr_entry m c 1, arr_entry m c 2, arr_entry m c 3, arr_entry m c 4, arr_entry m c 5,
    share_0, share_1, share_2, share_3, share_4, share_5]
  iintro ⟨H0, H1, H2, H3, H4⟩
  ihave ⟨H0a, H0b⟩ := (pointsTo_share (PosShare.mem_left_op_right fullShare)).1 $$ H0
  isplitl [H0a]; · iexact H0a
  isplitl [H1]; · iexact H1
  isplitl [H0b]; · iexact H0b
  isplitl [H2]; · iexact H2
  isplitl [H3]; · iexact H3
  iexact H4

/-! ## The run -/

/-- The unscoped buffers no window reads. -/
abbrev bypass : Finset (Ref sig .tc) := (Finset.univ.filter fun b : Ref sig .tc => ¬ b.isScoped) \ Finset.univ.image (Pipeline.arrRef spec0)

set_option backward.isDefEq.respectTransparency.types false in
/-- From any memory with zero counters every weakly fair execution of @main terminates, nothing faulting, with every
    window's array at the pipeline's account of the write-backs and every buffer no window reads as the region found
    it. -/
theorem run_main : θ_run defs (onTc (τ := τ) (main (F := F))) ⟨m, fun _ => 0, ρ⟩ (fun r => ∀ c : Dev nD,
      (∀ w : Fin cfg0.W, r.2.mem ((cfg0.win w).arr.view.loc (c.tc : Thread nD τ)) = (dats m 0 c).arrAt w cfg0.N)
      ∧ ∀ b ∈ bypass, r.2.mem ((c.tc : Thread nD τ).loc b) = V m c b) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := hsplit m)
    (X := fun _ => iprop(emp)) (Y := fun _ => iprop(emp)) (Z := fun c => Pipeline.unscopedRest spec0 c (V m c))
    (hX := fun c => by iintro H; isplitr; · iempintro
                       iexact H)
    (hin := fun c => by iintro -; iempintro)
    (hout := fun c => by rw [scopedRest0_eq]; iintro -; isplitr <;> iempintro)
    (QY := fun c s => ∀ b ∈ bypass, s.mem ((c.tc : Thread nD τ).loc b) = V m c b)
    (hY := fun c s' => by
      iintro ⟨-, HU, HSI⟩
      unfold Pipeline.unscopedRest
      imodintro
      iapply (pointsTo_read_all bypass (fun b => (c.tc : Thread nD τ).loc b) (V m c) s')
      isplitl [HU] <;> iassumption)
    (hQ := fun s h c => ⟨(h c).1, (h c).2⟩)

/-- The frame: the four arguments end as launched — the node features, the adjacency and the weights are inputs of the
    pipeline, never written back; the bias is read by no window (only its reshaped copy is). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (by decide)).trans (V_main_arg3 m c)⟩)
    (run_main m ρ)

end Cert.KernelIdeal.Hand

end
-- ==== Proof.Spec.lean ====
/-
  What the graph convolution computes, as functions of whole arrays over the extended reals.

  With node features `x` (10000 × 128), a dense adjacency `a` (10000 × 10000), a weight matrix `w` (128 × 128)
  and a bias row `b` (128), write `(a·x)[r, k] = ∑ l, a[r, l] · x[l, k]` for one propagation step.  The output
  entry at row `r`, column `j` can be written in two ways:

  * fused:     `(∑ k, (x[r, k] + (a·x)[r, k]) · w[k, j]) + b[j]`   — add first, one product with `w`;
  * two terms: `((∑ k, x[r, k] · w[k, j]) + ∑ k, (a·x)[r, k] · w[k, j]) + b[j]` — two products with `w`, then add.

  They agree whenever every entry of `x`, `a` and `w` is a real number: then each `(a·x)[r, k]` is real,
  `(u + v) · c = u · c + v · c` holds for reals, and a finite sum of sums splits.  On the extended reals the
  distributive law fails at infinities, which is why finiteness is assumed; the bias plays no part.
-/
import Idealize.ShloMosaic.PureOps.Ideal
import Idealize.ShloMosaic.Lib.ValueIdx

noncomputable section

namespace Cert.ChebSpec

open Idealize.ShloMosaic Idealize.ShloMosaic.ValueIdx

/-- Node features and the output: 10000 rows of 128. -/
abbrev Nodes : Shape := ⟨2, ![10000, 128]⟩
/-- The dense adjacency: 10000 × 10000. -/
abbrev Adjc : Shape := ⟨2, ![10000, 10000]⟩
/-- The weight matrix: 128 × 128. -/
abbrev Wgt : Shape := ⟨2, ![128, 128]⟩
/-- The bias row: 128. -/
abbrev Bia : Shape := ⟨1, ![128]⟩

/-- One propagation step at row `r`, feature `k`: `(a·x)[r, k] = ∑ l, a[r, l] · x[l, k]`. -/
def hop (x : Nodes.Idx → EReal) (a : Adjc.Idx → EReal) (r : Fin 10000) (k : Fin 128) : EReal :=
  ∑ l : Fin 10000, a (ix2 r l) * x (ix2 l k)

/-- The fused form: `(∑ k, (x[r, k] + (a·x)[r, k]) · w[k, j]) + b[j]`. -/
def fused (x : Nodes.Idx → EReal) (a : Adjc.Idx → EReal) (w : Wgt.Idx → EReal) (b : Bia.Idx → EReal) : Nodes.Idx → EReal :=
  fun i => (∑ k : Fin 128, (x (ix2 (i 0) k) + hop x a (i 0) k) * w (ix2 k (i 1))) + b (ix1 (i 1))

/-- The two-term form: `((∑ k, x[r, k] · w[k, j]) + ∑ k, (a·x)[r, k] · w[k, j]) + b[j]`. -/
def twoTerm (x : Nodes.Idx → EReal) (a : Adjc.Idx → EReal) (w : Wgt.Idx → EReal) (b : Bia.Idx → EReal) : Nodes.Idx → EReal :=
  fun i => ((∑ k : Fin 128, x (ix2 (i 0) k) * w (ix2 k (i 1))) + ∑ k : Fin 128, hop x a (i 0) k * w (ix2 k (i 1))) + b (ix1 (i 1))

/-- On real entries the two forms agree: distributivity of the product over the sum, entry by entry, then the
    sum of sums splits. -/
theorem fused_eq_twoTerm (x : Nodes.Idx → EReal) (a : Adjc.Idx → EReal) (w : Wgt.Idx → EReal) (b : Bia.Idx → EReal)
    (hx : ∀ i, ∃ r : ℝ, x i = (r : EReal)) (ha : ∀ i, ∃ r : ℝ, a i = (r : EReal)) (hw : ∀ i, ∃ r : ℝ, w i = (r : EReal)) :
    fused x a w b = twoTerm x a w b := by
  -- Real witnesses for every entry of the three arrays.
  choose rx hrx using hx
  choose ra hra using ha
  choose rwt hrwt using hw
  -- The coercion ℝ → EReal commutes with finite sums (it is additive and sends 0 to 0).
  have hsum : ∀ (s : Finset (Fin 10000)) (f : Fin 10000 → ℝ),
      ((∑ l ∈ s, f l : ℝ) : EReal) = ∑ l ∈ s, (f l : EReal) := by
    intro s f
    induction s using Finset.induction_on with
    | empty => simp
    | insert c s hc ih => rw [Finset.sum_insert hc, Finset.sum_insert hc, EReal.coe_add, ih]
  -- Hence each propagation step is (the coercion of) a real number.
  have hhop : ∀ r k, hop x a r k
      = ((∑ l : Fin 10000, ra (ix2 r l) * rx (ix2 l k) : ℝ) : EReal) := by
    intro r k
    unfold hop
    rw [hsum]
    refine Finset.sum_congr rfl fun l _ => ?_
    rw [hra, hrx, EReal.coe_mul]
  -- Entry by entry: drop the common bias, split the sum of sums, and distribute in ℝ.
  funext i
  unfold fused twoTerm
  congr 1
  rw [← Finset.sum_add_distrib]
  refine Finset.sum_congr rfl fun k _ => ?_
  rw [hhop (i 0) k, hrx, hrwt, ← EReal.coe_add, ← EReal.coe_mul, ← EReal.coe_mul, ← EReal.coe_mul,
    ← EReal.coe_add, add_mul]

end Cert.ChebSpec

end
-- ==== Proof.IdealValue.lean ====
/-
  What the fused kernel leaves in the output array, entry by entry.

  The body's one payload, read at row `p` and column `q` of a 400-row block, is
  `(∑ k, (xb[p, k] + ∑ l, ab[p, l] · x[l, k]) · w[k, q]) + b[0, q]`: two matrix products into zero accumulators are plain
  sums over the contracted axis, the bias row is broadcast down the rows.  Grid point `t` reads rows `400·t + p` of the
  node features and of the adjacency and writes rows `400·t + p` of the output, so what it writes back is block `t` of
  ONE function of the whole arrays — the fused form of the specification — and the 25 blocks tile the 10000 rows.
-/
import proofs.«141758_g30940944400406_retrytranche2_1339_10_alg».proof.Proof.IdealRun
import proofs.«141758_g30940944400406_retrytranche2_1339_10_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat Cfg Window)

/-! ## The two matrix products, read at an entry -/

/-- The adjacency product `[400, 10000] × [10000, 128]`: the left operand's row is the output's, -/
theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- its column the contracted index, -/
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- the right operand's row the contracted index, -/
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- its column the output's. -/
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Into a zero accumulator the adjacency product at `(p, q)` is `∑ l, ab[p, l] · x[l, q]`. -/
theorem matmulA_apply (ab : FVec Ideal S400x10000 .f32) (x : FVec Ideal S10000x128 .f32) (p : Fin 400) (q : Fin 128) :
    matmul dot_S400x10000_S10000x128_S400x128_1_0_0_1_n_n none ab x (constant S400x128 .f32 0x00000000#32) (ix2 p q)
      = ∑ l : Fin 10000, ab (ix2 p l) * x (ix2 l q) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhsA_0 _ _
    | ⟨1, _⟩ => exact (lhsA_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (rhsA_0 _ _).trans hk
    | ⟨1, _⟩ => exact rhsA_1 _ _)
  rw [el, er]

/-- The weight product `[400, 128] × [128, 128]`: the same four facts, -/
theorem lhsW_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsW_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsW_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsW_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- and the product at `(p, q)` is `∑ k, u[p, k] · w[k, q]`. -/
theorem matmulW_apply (u : FVec Ideal S400x128 .f32) (w : FVec Ideal S128x128 .f32) (p : Fin 400) (q : Fin 128) :
    matmul dot_S400x128_S128x128_S400x128_1_0_0_1_n_n none u w (constant S400x128 .f32 0x00000000#32) (ix2 p q)
      = ∑ k : Fin 128, u (ix2 p k) * w (ix2 k q) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-! ## The payload at an entry -/

/-- The body's payload at row `p`, column `q` of the block. -/
theorem pay_apply (ab : Vec Ideal S400x10000 .f32) (x : Vec Ideal S10000x128 .f32) (xb : Vec Ideal S400x128 .f32)
    (w : Vec Ideal S128x128 .f32) (b : Vec Ideal S1x128 .f32) (p : Fin 400) (q : Fin 128) :
    k0_pay1 ab x xb w b (ix2 p q)
      = (∑ k : Fin 128, (xb (ix2 p k) + ∑ l : Fin 10000, ab (ix2 p l) * x (ix2 l k)) * w (ix2 k q)) + b (ix2 (0 : Fin 1) q) := by
  unfold k0_pay1
  rw [addf_apply, matmulW_apply, broadcastTo_1b_ab_apply, shapeCast_self]
  congr 1
  refine Finset.sum_congr rfl fun k _ => ?_
  rw [addf_apply, matmulA_apply]

/-! ## The blocks the five input windows hand the body -/

variable (m : (ℓ : Loc nD τ sig) → Buf (Elt Ideal) ℓ)

theorem hz : (![0, 0] : Fin 2 → Nat) = fun _ => 0 := funext fun a => by fin_cases a <;> rfl

/-- Row `p` of grid point `t`'s 400-row block is row `400·t + p` of the array. -/
def row (t : Fin cfg0.N) (p : Fin 400) : Fin 10000 :=
  ⟨400 * t.val + p.val, by have h1 : t.val < 25 := lt_of_lt_of_eq t.isLt N_0; have h2 := p.isLt; omega⟩

/-- The printed index maps, decided over the 25 grid points: the two row-block inputs and the output sit at block
    `(t, 0)`, the three resident inputs at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node features' row block at `(p, k)` is the array at `(400·t + p, k)`. -/
theorem blk0_apply (c : Dev nD) (t : Fin cfg0.N) (p : Fin 400) (k : Fin 128) :
    iblk m c 0 t (ix2 p k) = m ((c : Thread nD τ).loc main_arg0) (ix2 (row t p) k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 400 + 1 * p.val = 400 * t.val + p.val; omega
  | ⟨1, _⟩ => show win0_0.index t (1 : Fin 2) * 128 + 1 * k.val = k.val; omega

/-- The adjacency's row block at `(p, l)` is the array at `(400·t + p, l)`. -/
theorem blk1_apply (c : Dev nD) (t : Fin cfg0.N) (p : Fin 400) (l : Fin 10000) :
    iblk m c 1 t (ix2 p l) = m ((c : Thread nD τ).loc main_arg1) (ix2 (row t p) l) := by
  obtain ⟨-, -, e0, e1, -⟩ := idx_facts t
  show V m c main_arg1 (((cfg0.win 1).blk t).view.emb (ix2 p l)) = _
  rw [V_main_arg1]
  refine congrArg (m ((c : Thread nD τ).loc main_arg1)) (funext fun a => Fin.ext ?_)
  match a with
  | ⟨0, _⟩ => show win0_1.index t (0 : Fin 2) * 400 + 1 * p.val = 400 * t.val + p.val; omega
  | ⟨1, _⟩ => show win0_1.index t (1 : Fin 2) * 10000 + 1 * l.val = l.val; omega

/-- The resident node features at `(l, k)` are the array there. -/
theorem blk2_apply (c : Dev nD) (t : Fin cfg0.N) (l : Fin 10000) (k : Fin 128) :
    iblk m c 2 t (ix2 l k) = m ((c : Thread nD τ).loc main_arg0) (ix2 l k) := by
  obtain ⟨-, -, -, -, e0, e1, -⟩ := idx_facts t
  show V m c main_arg0 (((cfg0.win 2).blk t).view.emb (ix2 l k)) = _
  rw [V_main_arg0]
  refine congrArg (m ((c : Thread nD τ).loc main_arg0)) (funext fun a => Fin.ext ?_)
  match a with
  | ⟨0, _⟩ => show win0_2.index t (0 : Fin 2) * 10000 + 1 * l.val = l.val; omega
  | ⟨1, _⟩ => show win0_2.index t (1 : Fin 2) * 128 + 1 * k.val = k.val; omega

/-- The resident weights at `(k, q)` are the array there. -/
theorem blk3_apply (c : Dev nD) (t : Fin cfg0.N) (k : Fin 128) (q : Fin 128) :
    iblk m c 3 t (ix2 k q) = m ((c : Thread nD τ).loc main_arg2) (ix2 k q) := by
  obtain ⟨-, -, -, -, -, -, e0, e1, -⟩ := idx_facts t
  show V m c main_arg2 (((cfg0.win 3).blk t).view.emb (ix2 k q)) = _
  rw [V_main_arg2]
  refine congrArg (m ((c : Thread nD τ).loc main_arg2)) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row the region finds: the launched bias, reshaped to one row by the host. -/
theorem V_bias_row (c : Dev nD) :
    (V m c main_call0_v0 : S1x128.Idx → Elt Ideal .f32) = shapeCast S1x128 (m ((c : Thread nD τ).loc main_arg3)) shapeCasts_S128_S1x128 := by
  dsimp only [V, hostOps0]; after_results; rfl

/-- The resident bias row at `(0, q)` is the launched bias at `q`. -/
theorem blk4_apply (c : Dev nD) (t : Fin cfg0.N) (q : Fin 128) :
    iblk m c 4 t (ix2 (0 : Fin 1) q) = m ((c : Thread nD τ).loc main_arg3) (ix1 q) := by
  obtain ⟨-, -, -, -, -, -, -, -, e0, e1, -⟩ := idx_facts t
  show V m c main_call0_v0 (((cfg0.win 4).blk t).view.emb (ix2 (0 : Fin 1) q)) = _
  have hidx : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 128 + 1 * q.val = q.val; omega)
  rw [hidx, V_bias_row]
  exact shapeCast_a_1a_apply _ _ 0 q

/-! ## From the blocks to the array -/

/-- What the output array ends holding on core `c`: the fused form of the four arguments as launched. -/
def result (c : Dev nD) : S10000x128.Idx → Elt Ideal .f32 :=
  Cert.ChebSpec.fused (m ((c : Thread nD τ).loc main_arg0)) (m ((c : Thread nD τ).loc main_arg1))
    (m ((c : Thread nD τ).loc main_arg2)) (m ((c : Thread nD τ).loc main_arg3))

/-- What grid point `t` writes back is block `t` of `result`: rows `400·t … 400·t + 399`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after_5]
  unfold outBlk
  rw [View.canon_unit_zero hz]
  simp only [View.ld_unit_zero (S := S400x128) hz, View.ld_unit_zero (S := S400x10000) hz, View.ld_unit_zero (S := S10000x128) hz,
    View.ld_unit_zero (S := S128x128) hz, View.ld_unit_zero (S := S1x128) hz]
  funext j
  obtain ⟨p, q, rfl⟩ : ∃ (p : Fin 400) (q : Fin 128), j = ix2 p q := ⟨j 0, j 1, eq_ix2 j⟩
  obtain ⟨-, -, -, -, -, -, -, -, -, -, e0, e1⟩ := idx_facts t
  have hemb : ((cfg0.win 5).blk t).view.emb (ix2 p q) = ix2 (row t p) q := funext fun a => Fin.ext (by
    match a with
    | ⟨0, _⟩ => show win0_5.index t (0 : Fin 2) * 400 + 1 * p.val = 400 * t.val + p.val; omega
    | ⟨1, _⟩ => show win0_5.index t (1 : Fin 2) * 128 + 1 * q.val = q.val; omega)
  show k0_pay1 (iblk m c 1 t) (iblk m c 2 t) (iblk m c 0 t) (iblk m c 3 t) (iblk m c 4 t) (ix2 p q)
    = result m c (((cfg0.win 5).blk t).view.emb (ix2 p q))
  rw [hemb]
  refine (pay_apply _ _ _ _ _ p q).trans ?_
  simp only [blk0_apply, blk1_apply, blk2_apply, blk3_apply, blk4_apply]
  rfl

/-- An index of the output array is in point `t`'s block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v0).slice (win0_5.rect t)).set ↔ _
  rw [View.set_slice_whole, Rect.mem_set_unit]
  exact Iff.rfl

/-- Every row is in some point's block: row `r` in point `r / 400`'s. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  have ht : t.val = (i 0).val / 400 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- The output array after the run is `result`. -/
theorem final (c : Dev nD) : (dats m 0 c).arrAt 5 cfg0.N = result m c :=
  (dats m 0 c).arrAt_eq_of_cover 5 (result m c) (fun t _ => flushed_eq m c t) cover

/-! ## The run, read -/

/-- Every weakly fair execution of @main terminates with the output array at the fused form of the arguments and the
    four arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (by decide)).trans (V_main_arg3 m c)⟩)
    (run_main m ρ)

end Cert.KernelIdeal.HandValue

end
-- ==== Proof.RefSide.lean ====
/-
  The reference program's result, read entry by entry, is the two-term form of the graph convolution:
  `((x·w) + (a·x)·w) + b` with the bias row broadcast down the rows.
-/
import proofs.«141758_g30940944400406_retrytranche2_1339_10_alg».proof.Proof.Gen.ReferenceIdeal.Read
import proofs.«141758_g30940944400406_retrytranche2_1339_10_alg».proof.Proof.Gen.ReferenceIdeal.Run
import proofs.«141758_g30940944400406_retrytranche2_1339_10_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- Entry `[r, j]` of the reference's last stage is `((∑ k, x[r,k]·w[k,j]) + ∑ k, (∑ l, a[r,l]·x[l,k])·w[k,j]) + b[j]`. -/
theorem ref_is_twoTerm (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    Cert.ReferenceIdeal.Read.val_main_v6 (F := Ideal) x0 x1 x2 x3 = Cert.ChebSpec.twoTerm x0 x1 x2 x3 := by
  funext i
  have e0 : ∀ k : Fin 128, Read.lidx_main_v0 i k = ix2 (i 0) k := fun k => funext fun a => Fin.ext (by
    match a with
    | ⟨0, _⟩ => rfl
    | ⟨1, _⟩ => rfl)
  have e1 : ∀ k : Fin 128, Read.ridx_main_v0 i k = ix2 k (i 1) := fun k => funext fun a => Fin.ext (by
    match a with
    | ⟨0, _⟩ => rfl
    | ⟨1, _⟩ => rfl)
  have e2 : ∀ (k : Fin 128) (l : Fin 10000), Read.lidx_main_v1 (Read.lidx_main_v2 i k) l = ix2 (i 0) l :=
    fun k l => funext fun a => Fin.ext (by
      match a with
      | ⟨0, _⟩ => rfl
      | ⟨1, _⟩ => rfl)
  have e3 : ∀ (k : Fin 128) (l : Fin 10000), Read.ridx_main_v1 (Read.lidx_main_v2 i k) l = ix2 l k :=
    fun k l => funext fun a => Fin.ext (by
      match a with
      | ⟨0, _⟩ => rfl
      | ⟨1, _⟩ => rfl)
  have e4 : ∀ k : Fin 128, Read.ridx_main_v2 i k = ix2 k (i 1) := fun k => funext fun a => Fin.ext (by
    match a with
    | ⟨0, _⟩ => rfl
    | ⟨1, _⟩ => rfl)
  have e5 : Read.idx_main_v4 (Read.idx_main_v5 i) = ix1 (i 1) := funext fun a => Fin.ext (by
    match a with
    | ⟨0, _⟩ => rfl)
  rw [Read.val_main_v6_apply, Read.val_main_v3_apply, Read.val_main_v0_apply, Read.val_main_v2_apply,
    Read.val_main_v5_apply, Read.val_main_v4_apply]
  simp only [Read.val_main_v1_apply, Ideal.addf_def, e0, e1, e2, e3, e4, e5]
  unfold Cert.ChebSpec.twoTerm Cert.ChebSpec.hop
  rfl

end Cert.ReferenceIdeal.RefValue

end
-- ==== Proof.Finite.lean ====
/-
  From the printed precondition to real entries: the predicate is the conjunction, over the four arguments, of
  "every entry has absolute value below +∞"; where it is all ones every entry of the node features, the adjacency and
  the weights is a real number (neither +∞ nor −∞).
-/
import proofs.«141758_g30940944400406_retrytranche2_1339_10_alg».proof.Pre_finite_inputs
import proofs.«141758_g30940944400406_retrytranche2_1339_10_alg».proof.Proof.Gen.Pre_finite_inputs
import Idealize.ShloMosaic.PureOps.Ideal
import Idealize.ShloMosaic.Lib.ReduceAll

noncomputable section

namespace Cert.FiniteInputs

open Idealize.ShloMosaic Cert.Pre_finite_inputs

/-- The empty shape has one index. -/
instance : Subsingleton S_.Idx := ⟨fun a b => funext fun d => d.elim0⟩

/-- The pattern 0x7F800000 denotes +∞. -/
theorem ofBits_inf : (FloatOps.ofBits (F := Ideal) .f32 0x7F800000#32 : EReal) = ⊤ := by
  show Ideal.ofBits .f32 0x7F800000#32 = ⊤
  simp [Ideal.ofBits, Ideal.ieee]

/-- An extended real whose absolute value `max v (-v)` compares below +∞ is a real number: at ⊥ and at ⊤ the absolute
    value is ⊤, which is not below itself. -/
theorem real_of_abs_lt (v : EReal)
    (h : FloatOps.cmpf (F := Ideal) (φ := .f32) .olt (FloatOps.hostAbsf v) (FloatOps.ofBits .f32 0x7F800000#32) = 1#1) :
    ∃ r : ℝ, v = (r : EReal) := by
  rw [ofBits_inf] at h
  -- at the ideal instance the comparison is the order's and the absolute value is `max v (-v)`
  change Ideal.cmp .olt (max v (-v)) ⊤ = 1#1 at h
  induction v using EReal.rec with
  | bot => exact absurd h (by simp [Ideal.cmp])
  | top => exact absurd h (by simp [Ideal.cmp])
  | coe r => exact ⟨r, rfl⟩

/-- Where the printed predicate holds at the ideal instance, the first three arguments have only real entries. -/
theorem real_of_pre [Cert.Pre_finite_inputs.Facts] (x : FVec Ideal S10000x128 .f32) (a : FVec Ideal S10000x10000 .f32)
    (w : FVec Ideal S128x128 .f32) (b : FVec Ideal S128 .f32)
    (h : Cert.Pre_finite_inputs.fn (F := Ideal) x a w b = fun _ => 1#1) :
    (∀ i, ∃ r : ℝ, x i = (r : EReal)) ∧ (∀ i, ∃ r : ℝ, a i = (r : EReal)) ∧ (∀ i, ∃ r : ℝ, w i = (r : EReal)) := by
  have h0 := congrFun h (fun d => d.elim0)
  dsimp only [Cert.Pre_finite_inputs.fn, Cert.Pre_finite_inputs.fn_part1] at h0
  -- the four scalars joined by `and`: each is 1
  obtain ⟨h123, _⟩ := IntOp.andi_eq_one.1 h0
  obtain ⟨h12, h3⟩ := IntOp.andi_eq_one.1 h123
  obtain ⟨h1, h2⟩ := IntOp.andi_eq_one.1 h12
  -- each scalar is an `and` over every entry's comparison |v| < +∞
  exact ⟨fun i => real_of_abs_lt (x i) (Host.reduce_andi_all _ _ _ _ _ h1 i),
    fun i => real_of_abs_lt (a i) (Host.reduce_andi_all _ _ _ _ _ h2 i),
    fun i => real_of_abs_lt (w i) (Host.reduce_andi_all _ _ _ _ _ h3 i)⟩

end Cert.FiniteInputs

end
-- ==== Proof.lean ====
/-
  A fused Chebyshev graph convolution (two terms, one shared weight matrix) against its plain reference.

  The kernel computes, for each block of 400 rows, `(xblk + adjblk · x) · w + b`; the reference computes
  `x · w + (adj · x) · w + b` on whole arrays.  Entry by entry over the extended reals, the first is
  `(∑ k, (x[r,k] + (a·x)[r,k]) · w[k,j]) + b[j]` and the second `((∑ k, x[r,k]·w[k,j]) + ∑ k, (a·x)[r,k]·w[k,j]) + b[j]`.
  They agree when every entry of `x`, `adj` and `w` is a real number — distributivity of the product over the sum,
  which fails at infinities — and the precondition says exactly that every input is finite.

  The three frames: both printed kernels run the same pipeline (25 grid points, six windows, two of them on the node
  features' array, whose share is dealt in two halves) and write only the output; the reference is a straight line of
  host operations.  The kernel's idealization rewrote nothing, so there is nothing to preserve.
-/
import proofs.«141758_g30940944400406_retrytranche2_1339_10_alg».proof.Defs
import proofs.«141758_g30940944400406_retrytranche2_1339_10_alg».proof.Proof.Gen.Kernel
import proofs.«141758_g30940944400406_retrytranche2_1339_10_alg».proof.Proof.Gen.KernelIdeal
import proofs.«141758_g30940944400406_retrytranche2_1339_10_alg».proof.Proof.Gen.ReferenceIdeal
import proofs.«141758_g30940944400406_retrytranche2_1339_10_alg».proof.Proof.Gen.Pre_finite_inputs
import proofs.«141758_g30940944400406_retrytranche2_1339_10_alg».proof.Proof.Gen.ReferenceIdeal.Run
import proofs.«141758_g30940944400406_retrytranche2_1339_10_alg».proof.Proof.Gen.ReferenceIdeal.Read
import proofs.«141758_g30940944400406_retrytranche2_1339_10_alg».proof.Proof.BitsRun
import proofs.«141758_g30940944400406_retrytranche2_1339_10_alg».proof.Proof.IdealRun
import proofs.«141758_g30940944400406_retrytranche2_1339_10_alg».proof.Proof.IdealValue
import proofs.«141758_g30940944400406_retrytranche2_1339_10_alg».proof.Proof.RefSide
import proofs.«141758_g30940944400406_retrytranche2_1339_10_alg».proof.Proof.Finite
import proofs.«141758_g30940944400406_retrytranche2_1339_10_alg».proof.Proof.Spec

noncomputable section

namespace Cert.Proof

open Idealize.ShloMosaic Idealize.ShloMosaic.TcCoe Idealize.SL.Sem

/-- The word-level kernel runs to the end and leaves its four arguments as launched. -/
theorem frame_p : Cert.frame_Kernel := fun m ρ _ => Cert.Kernel.Hand.frame m ρ

/-- So does the kernel read over the extended reals: the same pipeline, the same proof. -/
theorem frame_pi : Cert.frame_KernelIdeal := fun m ρ _ => Cert.KernelIdeal.Hand.frame m ρ

/-- The reference is seven host operations, none of which writes an argument. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the output at one function of the arguments: the kernel at the fused form, the reference
    at the two-term form, equal on finite inputs. -/
theorem algebraic : Cert.algebraic_KernelIdeal_ReferenceIdeal := by
  intro m ρ m' ρ' hpre hagree
  refine ⟨fun c => Cert.KernelIdeal.HandValue.result m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_is_twoTerm,
    (hagree c).1, (hagree c).2.1, (hagree c).2.2.1, (hagree c).2.2.2]
  obtain ⟨hx, ha, hw⟩ := Cert.FiniteInputs.real_of_pre _ _ _ _ (hpre c)
  exact (Cert.ChebSpec.fused_eq_twoTerm _ _ _ _ hx ha hw).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
